-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_7168" .f32 0x39124925#32 ((1 / 7168 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x7168 : Shape := ⟨2, ![8192, 7168]⟩
abbrev S7168 : Shape := ⟨1, ![7168]⟩
abbrev S384x7168 : Shape := ⟨2, ![384, 7168]⟩
abbrev S_ : Shape := ⟨0, ![]⟩

class Facts : Prop where
  bcast_S_S8192x7168 : S_.BroadcastsInDim S8192x7168 (![] : Fin 0 → Fin S8192x7168.rank)
  reducesTo_S8192x7168_S_d0_1 : S8192x7168.ReducesTo [0, 1] S_
  h_S_ : 0 < S_.numel
  bcast_S_S7168 : S_.BroadcastsInDim S7168 (![] : Fin 0 → Fin S7168.rank)
  reducesTo_S7168_S_d0 : S7168.ReducesTo [0] S_
  bcast_S_S384x7168 : S_.BroadcastsInDim S384x7168 (![] : Fin 0 → Fin S384x7168.rank)
  reducesTo_S384x7168_S_d0_1 : S384x7168.ReducesTo [0, 1] S_

variable [Facts]

def fn {F : FTy → Type} [FloatOps F] (main_arg0 : FVec F S8192x7168 .f32) (main_arg1 : FVec F S7168 .f32) (main_arg2 : FVec F S384x7168 .f32) : IVec S_ 1 :=
  let main_v0 : FVec F S8192x7168 .f32 := Host.absf main_arg0
  let main_cst : FVec F S_ .f32 := constant S_ .f32 0x7F800000#32
  let main_v1 : FVec F S8192x7168 .f32 := broadcastInDim S8192x7168 ![] bcast_S_S8192x7168 main_cst
  let main_v2 : IVec S8192x7168 1 := cmpf .olt main_v0 main_v1
  let main_c : IVec S_ 1 := constantI S_ 1 1#1
  let main_v3 : IVec S_ 1 := (fun x v => Host.reduce IntOp.andi x v reducesTo_S8192x7168_S_d0_1 h_S_) main_v2 main_c
  let main_v4 : FVec F S7168 .f32 := Host.absf main_arg1
  let main_cst_0 : FVec F S_ .f32 := constant S_ .f32 0x7F800000#32
  let main_v5 : FVec F S7168 .f32 := broadcastInDim S7168 ![] bcast_S_S7168 main_cst_0
  let main_v6 : IVec S7168 1 := cmpf .olt main_v4 main_v5
  let main_c_1 : IVec S_ 1 := constantI S_ 1 1#1
  let main_v7 : IVec S_ 1 := (fun x v => Host.reduce IntOp.andi x v reducesTo_S7168_S_d0 h_S_) main_v6 main_c_1
  let main_v8 : IVec S_ 1 := andi main_v3 main_v7
  let main_v9 : FVec F S384x7168 .f32 := Host.absf main_arg2
  let main_cst_2 : FVec F S_ .f32 := constant S_ .f32 0x7F800000#32
  let main_v10 : FVec F S384x7168 .f32 := broadcastInDim S384x7168 ![] bcast_S_S384x7168 main_cst_2
  let main_v11 : IVec S384x7168 1 := cmpf .olt main_v9 main_v10
  let main_c_3 : IVec S_ 1 := constantI S_ 1 1#1
  let main_v12 : IVec S_ 1 := (fun x v => Host.reduce IntOp.andi x v reducesTo_S384x7168_S_d0_1 h_S_) main_v11 main_c_3
  let main_v13 : IVec S_ 1 := andi main_v8 main_v12
  main_v13
-- ==== Kernel.lean ====
abbrev S8192x7168 : Shape := ⟨2, ![8192, 7168]⟩
abbrev S7168 : Shape := ⟨1, ![7168]⟩
abbrev S384x7168 : Shape := ⟨2, ![384, 7168]⟩
abbrev S1x7168 : Shape := ⟨2, ![1, 7168]⟩
abbrev S8192x384 : Shape := ⟨2, ![8192, 384]⟩
abbrev S256x7168 : Shape := ⟨2, ![256, 7168]⟩
abbrev S256x384 : Shape := ⟨2, ![256, 384]⟩
abbrev S256x1 : Shape := ⟨2, ![256, 1]⟩
abbrev S256x1792 : Shape := ⟨2, ![256, 1792]⟩
abbrev S256 : Shape := ⟨1, ![256]⟩
abbrev S1x1792 : Shape := ⟨2, ![1, 1792]⟩

abbrev nBuf : Space → Nat
  | .hbm => 10
  | .vmem => 9
  | .smem => 0
  | _ => 0

abbrev bufTy : (tb : Table) → Fin (tcTables nBuf tb) → BufTy
  | .hbm, ⟨0, _⟩ => ⟨S8192x7168, .f32⟩
  | .hbm, ⟨1, _⟩ => ⟨S7168, .f32⟩
  | .hbm, ⟨2, _⟩ => ⟨S384x7168, .f32⟩
  | .hbm, ⟨3, _⟩ => ⟨S1x7168, .f32⟩
  | .hbm, ⟨4, _⟩ => ⟨S1x7168, .f32⟩
  | .hbm, ⟨5, _⟩ => ⟨S384x7168, .f32⟩
  | .hbm, ⟨6, _⟩ => ⟨S384x7168, .f32⟩
  | .hbm, ⟨7, _⟩ => ⟨S384x7168, .bf16⟩
  | .hbm, ⟨8, _⟩ => ⟨S8192x7168, .f32⟩
  | .hbm, ⟨9, _⟩ => ⟨S8192x384, .f32⟩
  | .local _ .vmem, ⟨0, _⟩ => ⟨S256x7168, .f32⟩
  | .local _ .vmem, ⟨1, _⟩ => ⟨S256x7168, .f32⟩
  | .local _ .vmem, ⟨2, _⟩ => ⟨S1x7168, .f32⟩
  | .local _ .vmem, ⟨3, _⟩ => ⟨S384x7168, .bf16⟩
  | .local _ .vmem, ⟨4, _⟩ => ⟨S256x7168, .f32⟩
  | .local _ .vmem, ⟨5, _⟩ => ⟨S256x7168, .f32⟩
  | .local _ .vmem, ⟨6, _⟩ => ⟨S256x384, .f32⟩
  | .local _ .vmem, ⟨7, _⟩ => ⟨S256x384, .f32⟩
  | .local _ .vmem, ⟨8, _⟩ => ⟨S256x7168, .bf16⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x7168 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S7168_S1x7168 : S7168.ShapeCasts S1x7168
  bcast_S7168_S1x7168_1 : S7168.BroadcastsInDim S1x7168 (![1] : Fin 1 → Fin S1x7168.rank)
  bcast_S1x7168_S384x7168_0_1 : S1x7168.BroadcastsInDim S384x7168 (![0, 1] : Fin 2 → Fin S384x7168.rank)
  bitsLt_bf16_f32 : FTy.bits .bf16 < FTy.bits .f32
  inb_S256x7168_S256x1792_0_0 : ∀ a, (![0, 0] : Fin 2 → Nat) a + S256x1792.size a ≤ S256x7168.size a
  h_S256x1792 : 0 < S256x1792.numel
  shapeCasts_S256x1792_S256x1792 : S256x1792.ShapeCasts S256x1792
  packedbf16_S256x7168_S256x1792_0_0 : (Rect.unit (s := S256x7168) ![0, 0] S256x1792.size inb_S256x7168_S256x1792_0_0).PackedRows (EltTy.packing .bf16)
  reduces_S256x1792_S256 : S256x1792.Reduces [1] S256
  shapeCasts_S256_S256x1 : S256.ShapeCasts S256x1
  inb_S256x7168_S256x1792_0_1792 : ∀ a, (![0, 1792] : Fin 2 → Nat) a + S256x1792.size a ≤ S256x7168.size a
  packedbf16_S256x7168_S256x1792_0_1792 : (Rect.unit (s := S256x7168) ![0, 1792] S256x1792.size inb_S256x7168_S256x1792_0_1792).PackedRows (EltTy.packing .bf16)
  inb_S256x7168_S256x1792_0_3584 : ∀ a, (![0, 3584] : Fin 2 → Nat) a + S256x1792.size a ≤ S256x7168.size a
  packedbf16_S256x7168_S256x1792_0_3584 : (Rect.unit (s := S256x7168) ![0, 3584] S256x1792.size inb_S256x7168_S256x1792_0_3584).PackedRows (EltTy.packing .bf16)
  inb_S256x7168_S256x1792_0_5376 : ∀ a, (![0, 5376] : Fin 2 → Nat) a + S256x1792.size a ≤ S256x7168.size a
  packedbf16_S256x7168_S256x1792_0_5376 : (Rect.unit (s := S256x7168) ![0, 5376] S256x1792.size inb_S256x7168_S256x1792_0_5376).PackedRows (EltTy.packing .bf16)
  inb_S1x7168_S1x1792_0_0 : ∀ a, (![0, 0] : Fin 2 → Nat) a + S1x1792.size a ≤ S1x7168.size a
  h_S1x1792 : 0 < S1x1792.numel
  shapeCasts_S1x1792_S1x1792 : S1x1792.ShapeCasts S1x1792
  broadcasts_S256x1_S256x1792 : S256x1.Broadcasts S256x1792
  broadcasts_S1x1792_S256x1792 : S1x1792.Broadcasts S256x1792
  inb_S1x7168_S1x1792_0_1792 : ∀ a, (![0, 1792] : Fin 2 → Nat) a + S1x1792.size a ≤ S1x7168.size a
  inb_S1x7168_S1x1792_0_3584 : ∀ a, (![0, 3584] : Fin 2 → Nat) a + S1x1792.size a ≤ S1x7168.size a
  inb_S1x7168_S1x1792_0_5376 : ∀ a, (![0, 5376] : Fin 2 → Nat) a + S1x1792.size a ≤ S1x7168.size a
  inb_S256x7168_S256x7168_0_0 : ∀ a, (![0, 0] : Fin 2 → Nat) a + S256x7168.size a ≤ S256x7168.size a
  h_S256x7168 : 0 < S256x7168.numel
  inb_S384x7168_S384x7168_0_0 : ∀ a, (![0, 0] : Fin 2 → Nat) a + S384x7168.size a ≤ S384x7168.size a
  h_S384x7168 : 0 < S384x7168.numel
  shapeCasts_S384x7168_S384x7168 : S384x7168.ShapeCasts S384x7168
  broadcasts_S256x1_S256x384 : S256x1.Broadcasts S256x384
  inb_S256x384_S256x384_0_0 : ∀ a, (![0, 0] : Fin 2 → Nat) a + S256x384.size a ≤ S256x384.size a
  h_S256x384 : 0 < S256x384.numel
  dot_S256x7168_S384x7168_S256x384_1_1_0_0_n_n_wf : DotDims.WF S256x7168 S384x7168 S256x384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x7168.size a ≤ S8192x7168.size a
  hwx0_0 : ∀ i : grid0.Coords, EltTy.bits .f32 = 32 ∨ (Rect.block (s := S8192x7168) S256x7168.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x7168.size a ≤ S1x7168.size a
  hwx0_1 : ∀ i : grid0.Coords, EltTy.bits .f32 = 32 ∨ (Rect.block (s := S1x7168) S1x7168.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x7168.size a ≤ S384x7168.size a
  hwx0_2 : ∀ i : grid0.Coords, EltTy.bits .bf16 = 32 ∨ (Rect.block (s := S384x7168) S384x7168.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x7168.size a ≤ S8192x7168.size a
  hwx0_3 : ∀ i : grid0.Coords, EltTy.bits .f32 = 32 ∨ (Rect.block (s := S8192x7168) S256x7168.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x384.size a ≤ S8192x384.size a
  hwx0_4 : ∀ i : grid0.Coords, EltTy.bits .f32 = 32 ∨ (Rect.block (s := S8192x384) S256x384.size (cc0_transform_4 i) (hinb0_4 i)).WholeWords (EltTy.packing .f32)

variable [Facts₀]

def dot_S256x7168_S384x7168_S256x384_1_1_0_0_n_n : DotDims S256x7168 S384x7168 S256x384 where
  lhsContracting := [1]
  rhsContracting := [1]
  lhsNonContracting := [0]
  rhsNonContracting := [0]
  lhsBatch := []
  rhsBatch := []
  wf := dot_S256x7168_S384x7168_S256x384_1_1_0_0_n_n_wf

abbrev win0_0 : Pipeline.Window sig grid0 :=
  Pipeline.Window.ofSpec (Memref.whole main_arg0) S256x7168.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x7168.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S384x7168.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S256x7168.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S256x384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x7168 : Shape := ⟨2, ![8192, 7168]⟩
abbrev S7168 : Shape := ⟨1, ![7168]⟩
abbrev S384x7168 : Shape := ⟨2, ![384, 7168]⟩
abbrev S_ : Shape := ⟨0, ![]⟩
abbrev S8192 : Shape := ⟨1, ![8192]⟩
abbrev S8192x1 : Shape := ⟨2, ![8192, 1]⟩
abbrev S1x7168 : Shape := ⟨2, ![1, 7168]⟩
abbrev S8192x384 : Shape := ⟨2, ![8192, 384]⟩

abbrev nBuf : Space → Nat
  | .hbm => 20
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S7168, .f32⟩
  | .hbm, ⟨2, _⟩ => ⟨S384x7168, .f32⟩
  | .hbm, ⟨3, _⟩ => ⟨S8192x7168, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x7168, .f32⟩
  | .hbm, ⟨15, _⟩ => ⟨S8192x7168, .f32⟩
  | .hbm, ⟨16, _⟩ => ⟨S1x7168, .f32⟩
  | .hbm, ⟨17, _⟩ => ⟨S8192x7168, .f32⟩
  | .hbm, ⟨18, _⟩ => ⟨S8192x7168, .f32⟩
  | .hbm, ⟨19, _⟩ => ⟨S8192x384, .f32⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S8192x7168_S8192_d1 : S8192x7168.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x7168_0_1 : S8192x1.BroadcastsInDim S8192x7168 (![0, 1] : Fin 2 → Fin S8192x7168.rank)
  bcast_S7168_S1x7168_1 : S7168.BroadcastsInDim S1x7168 (![1] : Fin 1 → Fin S1x7168.rank)
  bcast_S1x7168_S8192x7168_0_1 : S1x7168.BroadcastsInDim S8192x7168 (![0, 1] : Fin 2 → Fin S8192x7168.rank)
  dot_S8192x7168_S384x7168_S8192x384_1_1_0_0_n_n_wf : DotDims.WF S8192x7168 S384x7168 S8192x384 [1] [1] [0] [0] [] []

variable [Facts₀]

def dot_S8192x7168_S384x7168_S8192x384_1_1_0_0_n_n : DotDims S8192x7168 S384x7168 S8192x384 where
  lhsContracting := [1]
  rhsContracting := [1]
  lhsNonContracting := [0]
  rhsNonContracting := [0]
  lhsBatch := []
  rhsBatch := []
  wf := dot_S8192x7168_S384x7168_S8192x384_1_1_0_0_n_n_wf

class Facts : Prop extends Facts₀ where

variable [Facts]
-- ==== Proof.LibTileSum.lean ====
/-
  A sum over all positions of a tiled range, taken tile by tile.
-/
import Mathlib.Algebra.BigOperators.Fin
import Mathlib.Logic.Equiv.Fin.Basic

namespace Cert.LibTileSum

/-- Position `r` of tile `i`, of `a` tiles of `b` positions each, among all `a * b` positions. -/
def pos {a b : ℕ} (i : Fin a) (r : Fin b) : Fin (a * b) :=
  ⟨b * i.val + r.val, by
    have hi := i.isLt; have hr := r.isLt
    have h1 : b * i.val + b ≤ b * a := by
      have : b * (i.val + 1) ≤ b * a := Nat.mul_le_mul_left _ hi
      rwa [Nat.mul_succ] at this
    rw [Nat.mul_comm a b]; omega⟩

theorem pos_val {a b : ℕ} (i : Fin a) (r : Fin b) : (pos i r).val = b * i.val + r.val := rfl

/-- Summing tile by tile, and within a tile position by position, is summing over all positions. -/
theorem sum_tiles {M : Type*} [AddCommMonoid M] {a b : ℕ} (f : Fin (a * b) → M) :
    ∑ i : Fin a, ∑ r : Fin b, f (pos i r) = ∑ n : Fin (a * b), f n := by
  rw [← Finset.sum_product' (f := fun i r => f (pos i r)), Finset.univ_product_univ]
  refine Fintype.sum_equiv (finProdFinEquiv (m := a) (n := b)) _ _ fun p => ?_
  congr 1
  apply Fin.ext
  simp [pos_val, finProdFinEquiv, Nat.add_comm]

end Cert.LibTileSum
-- ==== Proof.Spec.lean ====
/-
  RMS normalisation followed by a gate projection, as functions of whole arrays over the extended reals.

  For a token row x[t, ·] of 7168 entries the row scale is r(t) = rsqrt((Σ_h x[t,h]²) · (1/7168) + ε), with ε the
  f32 word 0x358637BD (a positive real).  The two results are
    normed[t, h] = x[t, h] · r(t) · w[h]
    logits[t, e] = Σ_h normed[t, h] · g[e, h].
  A second arrangement of the logits folds the weight into the gate matrix and applies the row scale after the
  contraction: (Σ_h x[t, h] · (g[e, h] · w[h])) · r(t).  Over the extended reals the two arrangements agree when every
  entry of x, w, g is a real number: then r(t) is a real number too (the argument of rsqrt is at least ε > 0), every
  product is a product of reals, and the identity is distributivity in ℝ.  (With an infinite entry it can fail:
  r(t)·(+∞) − r(t)·(+∞) is not (∞ − ∞)·r(t) in general.)

  Also here: a row sum of 7168 terms taken as four consecutive runs of 1792 terms, added in order from zero, is the
  whole sum — commutativity and associativity of + only.
-/
import Idealize.ShloMosaic.PureOps.Ideal.Laws
import Idealize.ShloMosaic.Lib.ValueIdx
import proofs.«429081_j4638564680113_3_alg».proof.Proof.LibTileSum

noncomputable section

namespace Cert.RmsGate

open Idealize.ShloMosaic Idealize.ShloMosaic.ValueIdx
open scoped BigOperators

/-! ## The two float constants -/

/-- ε = 0x358637BD is the real 8796093 · 2⁻⁴³ (about 1e-6). -/
theorem eps_eq : Ideal.ofBits .f32 0x358637BD#32 = (((8796093 : ℝ) * (2 : ℝ) ^ (-43 : ℤ) : ℝ) : EReal) := by
  simp [Ideal.ofBits, Ideal.ieee, -EReal.coe_mul]

/-- ε is a positive real. -/
theorem eps_pos : ∃ e : ℝ, 0 < e ∧ Ideal.ofBits .f32 0x358637BD#32 = (e : EReal) :=
  ⟨_, by positivity, eps_eq⟩

/-- The divisor 0x45E00000 is the real 7168. -/
theorem ofBits_7168 : Ideal.ofBits .f32 0x45E00000#32 = ((7168 : ℝ) : EReal) := by
  simp [Ideal.ofBits, Ideal.ieee, -EReal.coe_mul]; norm_num

/-! ## Sums of reals inside the extended reals -/

/-- The embedding of ℝ commutes with finite sums. -/
theorem coe_sum {ι : Type*} (s : Finset ι) (f : ι → ℝ) :
    ((∑ i ∈ s, f i : ℝ) : EReal) = ∑ i ∈ s, (f i : EReal) :=
  map_sum (⟨⟨fun r : ℝ => (r : EReal), EReal.coe_zero⟩, EReal.coe_add⟩ : ℝ →+ EReal) f s

/-! ## The row scale -/

/-- r = rsqrt((Σ_h row[h]²) · (1/7168) + ε) of one row of 7168 entries. -/
def scaleOf (row : Fin 7168 → EReal) : EReal :=
  Ideal.rsqrt ((∑ h : Fin 7168, row h * row h) * ((1 / 7168 : ℝ) : EReal) + Ideal.ofBits .f32 0x358637BD#32)

/-- For a row of reals the scale is a real: the mean of squares is a nonnegative real, so rsqrt's argument is a real
    at least ε > 0, where rsqrt is 1/√·. -/
theorem scaleOf_real (row : Fin 7168 → EReal) (hr : ∀ h, ∃ r : ℝ, row h = r) : ∃ r : ℝ, scaleOf row = r := by
  choose a ha using hr
  obtain ⟨e, he, hE⟩ := eps_pos
  have hs : (∑ h : Fin 7168, row h * row h) = ((∑ h : Fin 7168, a h * a h : ℝ) : EReal) := by
    rw [coe_sum]; exact Finset.sum_congr rfl fun h _ => by rw [ha h, EReal.coe_mul]
  have hpos : 0 < (∑ h : Fin 7168, a h * a h) * (1 / 7168) + e := by
    have : 0 ≤ ∑ h : Fin 7168, a h * a h := Finset.sum_nonneg fun h _ => mul_self_nonneg _
    positivity
  unfold scaleOf
  rw [hs, hE, ← EReal.coe_mul, ← EReal.coe_add, Ideal.rsqrt_coe, if_neg (not_lt.mpr hpos.le), if_neg hpos.ne']
  exact ⟨_, rfl⟩

/-! ## The results -/

/-- normed[t, h] = x[t, h] · r(t) · w[h]. -/
def normed (x : (⟨2, ![8192, 7168]⟩ : Shape).Idx → EReal) (w : (⟨1, ![7168]⟩ : Shape).Idx → EReal) :
    (⟨2, ![8192, 7168]⟩ : Shape).Idx → EReal :=
  fun i => x i * scaleOf (fun h => x (ix2 (i 0) h)) * w (ix1 (i 1))

/-- logits[t, e] = Σ_h normed[t, h] · g[e, h]. -/
def logits (x : (⟨2, ![8192, 7168]⟩ : Shape).Idx → EReal) (w : (⟨1, ![7168]⟩ : Shape).Idx → EReal)
    (g : (⟨2, ![384, 7168]⟩ : Shape).Idx → EReal) : (⟨2, ![8192, 384]⟩ : Shape).Idx → EReal :=
  fun j => ∑ h : Fin 7168, normed x w (ix2 (j 0) h) * g (ix2 (j 1) h)

/-- The other arrangement: (Σ_h x[t, h] · (g[e, h] · w[h])) · r(t). -/
def logitsFactored (x : (⟨2, ![8192, 7168]⟩ : Shape).Idx → EReal) (w : (⟨1, ![7168]⟩ : Shape).Idx → EReal)
    (g : (⟨2, ![384, 7168]⟩ : Shape).Idx → EReal) : (⟨2, ![8192, 384]⟩ : Shape).Idx → EReal :=
  fun j => (∑ h : Fin 7168, x (ix2 (j 0) h) * (g (ix2 (j 1) h) * w (ix1 h))) * scaleOf (fun h => x (ix2 (j 0) h))

/-- On arrays of reals the two arrangements are one function: pull the (real) row scale out of the sum. -/
theorem logits_eq_factored (x : (⟨2, ![8192, 7168]⟩ : Shape).Idx → EReal) (w : (⟨1, ![7168]⟩ : Shape).Idx → EReal)
    (g : (⟨2, ![384, 7168]⟩ : Shape).Idx → EReal)
    (hx : ∀ i, ∃ r : ℝ, x i = r) (hw : ∀ i, ∃ r : ℝ, w i = r) (hg : ∀ i, ∃ r : ℝ, g i = r) :
    logits x w g = logitsFactored x w g := by
  funext j
  obtain ⟨s, hs⟩ := scaleOf_real (fun h => x (ix2 (j 0) h)) (fun h => hx _)
  choose a ha using hx
  choose b hb using hw
  choose d hd using hg
  show (∑ h : Fin 7168, x (ix2 (j 0) h) * scaleOf (fun h' => x (ix2 (j 0) h')) * w (ix1 h) * g (ix2 (j 1) h))
      = (∑ h : Fin 7168, x (ix2 (j 0) h) * (g (ix2 (j 1) h) * w (ix1 h))) * scaleOf (fun h' => x (ix2 (j 0) h'))
  rw [hs]
  simp only [ha, hb, hd, ← EReal.coe_mul]
  rw [← coe_sum, ← coe_sum, ← EReal.coe_mul, Finset.sum_mul]
  exact congrArg _ (Finset.sum_congr rfl fun h _ => by ring)

/-! ## A row sum in four runs -/

/-- Entry k of run c (four runs of 1792 consecutive entries) among the 7168 entries of a row. -/
def chunkPos (c : Fin 4) (k : Fin 1792) : Fin 7168 := ⟨1792 * c.val + k.val, by have := c.isLt; have := k.isLt; omega⟩

theorem chunkPos_val (c : Fin 4) (k : Fin 1792) : (chunkPos c k).val = 1792 * c.val + k.val := rfl

/-- Adding the four runs' sums in order, from zero, gives the sum over the row. -/
theorem sum_chunks {M : Type*} [AddCommMonoid M] (f : Fin 7168 → M) :
    0 + (∑ k : Fin 1792, f (chunkPos 0 k)) + (∑ k : Fin 1792, f (chunkPos 1 k)) + (∑ k : Fin 1792, f (chunkPos 2 k))
        + (∑ k : Fin 1792, f (chunkPos 3 k)) = ∑ h : Fin 7168, f h := by
  rw [zero_add, ← Cert.LibTileSum.sum_tiles (a := 4) (b := 1792) f, Fin.sum_univ_four]
  rfl

end Cert.RmsGate

end
-- ==== Proof.LibKeepdims.lean ====
/-
  Two layout readings used by every reduction that keeps its reduced axis as a unit axis (a row statistic kept as a
  column): a vector [a] viewed as a column [a, 1], and a column [a, 1] spread over the b entries of each row.
-/
import Idealize.ShloMosaic.Lib.Pipeline.Value
import Idealize.ShloMosaic.Lib.ValueIdx

namespace Cert.LibKeepdims

open Idealize.ShloMosaic Idealize.ShloMosaic.ValueIdx

variable {α : Type}

/-- A vector [a] cast to a column [a, 1] reads, at (i, u), the vector's entry i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry in row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
/-
  The body's arithmetic over one block of 256 token rows, read entry by entry over the extended reals.

  The block x0 : [256, 7168] is read in four column runs of 1792.  The body squares each run, sums each row of it,
  adds the four row sums in order from zero, multiplies by the named constant 1/7168, adds ε and takes rsqrt: at
  row p that is the row scale r(p) of row p's 7168 entries (a sum in four runs is the whole sum).  Each of the four
  normalised pieces holds x0[p, c] · r(p) · w[0, c] at its columns c.  The logits block is the contraction over all
  7168 columns of a copy of x0 (narrowing to bf16 changes nothing over the extended reals) with the folded gate
  block, scaled by r(p) afterwards: (Σ_h x0[p, h] · gf[q, h]) · r(p).
-/
import proofs.«429081_j4638564680113_3_alg».proof.Proof.Gen.KernelIdeal.Frame
import proofs.«429081_j4638564680113_3_alg».proof.Proof.Spec
import proofs.«429081_j4638564680113_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.Block

open Cert.KernelIdeal Cert.KernelIdeal.Facts₀
open Cert.KernelIdeal.Gen (k0_pay1 k0_pay2 k0_pay3 k0_pay4 k0_pay5 k0_pay6 k0_pay7 k0_pay8 k0_pay9 k0_pay10 k0_pay11 k0_pay12)
open Idealize.ShloMosaic Idealize.ShloMosaic.ValueIdx Cert.RmsGate Cert.LibKeepdims
open scoped BigOperators

/-! ## Reading a column run of the block -/

/-- A load of 1792 columns from column o of a [256, 7168] block reads, at (p, k), the block at (p, o + k). -/
theorem ld_cols {Val : EltTy → Type} {e : EltTy} (X : S256x7168.Idx → Val e) (o : ℕ)
    (inb : ∀ a, (![0, o] : Fin 2 → ℕ) a + S256x1792.size a ≤ S256x7168.size a) (p : Fin 256) (k : Fin 1792)
    (h : o + k.val < 7168) :
    View.ld X (Rect.unit (s := S256x7168) ![0, o] S256x1792.size inb) (ix2 p k) = X (ix2 p ⟨o + k.val, h⟩) :=
  congrArg X (funext fun a => Fin.ext (by
    match a with
    | ⟨0, _⟩ => show 0 + 1 * p.val = p.val; omega
    | ⟨1, _⟩ => show o + 1 * k.val = o + k.val; omega))

/-- The same for the one weight row [1, 7168]. -/
theorem ld_wcols {Val : EltTy → Type} {e : EltTy} (X : S1x7168.Idx → Val e) (o : ℕ)
    (inb : ∀ a, (![0, o] : Fin 2 → ℕ) a + S1x1792.size a ≤ S1x7168.size a) (k : Fin 1792)
    (h : o + k.val < 7168) :
    View.ld X (Rect.unit (s := S1x7168) ![0, o] S1x1792.size inb) (ix2 (0 : Fin 1) k) = X (ix2 (0 : Fin 1) ⟨o + k.val, h⟩) :=
  congrArg X (funext fun a => Fin.ext (by
    match a with
    | ⟨0, _⟩ => rfl
    | ⟨1, _⟩ => show o + 1 * k.val = o + k.val; omega))

/-! ## A row's sum of squares over one run -/

/-- The reduced index (p) with the summed coordinate k put back is (p, k). -/
theorem lift_eq (p : Fin 256) (k : Fin 1792) :
    reduces_S256x1792_S256.lift (ix1 p) k = (ix2 p k : S256x1792.Idx) :=
  funext fun a => Fin.ext (by match a with | ⟨0, _⟩ => rfl | ⟨1, _⟩ => rfl)

/-- Squaring a run, summing each of its rows and keeping the sum as a column: at row p, Σ_k xc[p, k]². -/
theorem run_sumsq (xc : FVec Ideal S256x1792 .f32) (p : Fin 256) :
    shapeCast S256x1 (multiReduction .add [1] S256 (mulf xc xc) 0x00000000#32 reduces_S256x1792_S256 (.inl rfl) rfl)
        shapeCasts_S256_S256x1 (ix2 p (0 : Fin 1))
      = ∑ k : Fin 1792, xc (ix2 p k) * xc (ix2 p k) := by
  refine (shapeCast_a_a1_apply _ shapeCasts_S256_S256x1 p 0).trans ?_
  refine (Ideal.multiReduction_add_single (mulf xc xc) 0x00000000#32 reduces_S256x1792_S256 (.inl rfl) rfl (ix1 p)).trans ?_
  refine Finset.sum_congr rfl fun (k : Fin 1792) _ => ?_
  exact congrArg (fun i => xc i * xc i) (lift_eq p k)

/-! ## The row scale -/

/-- The named constant is 1/7168. -/
theorem inv_n : Named.named (F := Ideal) κ "inv_7168" (φ := .f32) 0x39124925#32 = ((1 / 7168 : ℝ) : EReal) :=
  IdealRules.named_const.ideal_named_scalar _ _ _ _ rfl

/-- The body's column of row scales, over the four runs a b c d of the block: entry p written out. -/
theorem scale_unfold (a b c d : FVec Ideal S256x1792 .f32) (p : Fin 256) :
    k0_pay9 (F := Ideal) (k0_pay6 a b c) (k0_pay8 d) (ix2 p (0 : Fin 1))
      = Ideal.rsqrt ((Ideal.ofBits .f32 0x00000000#32
            + shapeCast S256x1 (multiReduction .add [1] S256 (mulf a a) 0x00000000#32 reduces_S256x1792_S256 (.inl rfl) rfl) shapeCasts_S256_S256x1 (ix2 p (0 : Fin 1))
            + shapeCast S256x1 (multiReduction .add [1] S256 (mulf b b) 0x00000000#32 reduces_S256x1792_S256 (.inl rfl) rfl) shapeCasts_S256_S256x1 (ix2 p (0 : Fin 1))
            + shapeCast S256x1 (multiReduction .add [1] S256 (mulf c c) 0x00000000#32 reduces_S256x1792_S256 (.inl rfl) rfl) shapeCasts_S256_S256x1 (ix2 p (0 : Fin 1))
            + shapeCast S256x1 (multiReduction .add [1] S256 (mulf d d) 0x00000000#32 reduces_S256x1792_S256 (.inl rfl) rfl) shapeCasts_S256_S256x1 (ix2 p (0 : Fin 1)))
          * Named.named (F := Ideal) κ "inv_7168" (φ := .f32) 0x39124925#32 + Ideal.ofBits .f32 0x358637BD#32) := rfl

/-- The four runs of a block x0. -/
abbrev run0 (x0 : FVec Ideal S256x7168 .f32) : FVec Ideal S256x1792 .f32 :=
  View.ld (Val := Elt Ideal) (e' := .f32) x0 (Rect.unit (s := S256x7168) ![0, 0] S256x1792.size inb_S256x7168_S256x1792_0_0)
abbrev run1 (x0 : FVec Ideal S256x7168 .f32) : FVec Ideal S256x1792 .f32 :=
  View.ld (Val := Elt Ideal) (e' := .f32) x0 (Rect.unit (s := S256x7168) ![0, 1792] S256x1792.size inb_S256x7168_S256x1792_0_1792)
abbrev run2 (x0 : FVec Ideal S256x7168 .f32) : FVec Ideal S256x1792 .f32 :=
  View.ld (Val := Elt Ideal) (e' := .f32) x0 (Rect.unit (s := S256x7168) ![0, 3584] S256x1792.size inb_S256x7168_S256x1792_0_3584)
abbrev run3 (x0 : FVec Ideal S256x7168 .f32) : FVec Ideal S256x1792 .f32 :=
  View.ld (Val := Elt Ideal) (e' := .f32) x0 (Rect.unit (s := S256x7168) ![0, 5376] S256x1792.size inb_S256x7168_S256x1792_0_5376)

theorem run0_apply (x0 : FVec Ideal S256x7168 .f32) (p : Fin 256) (k : Fin 1792) : run0 x0 (ix2 p k) = x0 (ix2 p (chunkPos 0 k)) := by
  refine (ld_cols (Val := Elt Ideal) (e := .f32) x0 0 inb_S256x7168_S256x1792_0_0 p k (by have := k.isLt; omega)).trans ?_
  exact congrArg x0 (congrArg (ix2 p) (Fin.ext (by show 0 + k.val = 1792 * 0 + k.val; omega)))
theorem run1_apply (x0 : FVec Ideal S256x7168 .f32) (p : Fin 256) (k : Fin 1792) : run1 x0 (ix2 p k) = x0 (ix2 p (chunkPos 1 k)) := by
  refine (ld_cols (Val := Elt Ideal) (e := .f32) x0 1792 inb_S256x7168_S256x1792_0_1792 p k (by have := k.isLt; omega)).trans ?_
  exact congrArg x0 (congrArg (ix2 p) (Fin.ext (by show 1792 + k.val = 1792 * 1 + k.val; omega)))
theorem run2_apply (x0 : FVec Ideal S256x7168 .f32) (p : Fin 256) (k : Fin 1792) : run2 x0 (ix2 p k) = x0 (ix2 p (chunkPos 2 k)) := by
  refine (ld_cols (Val := Elt Ideal) (e := .f32) x0 3584 inb_S256x7168_S256x1792_0_3584 p k (by have := k.isLt; omega)).trans ?_
  exact congrArg x0 (congrArg (ix2 p) (Fin.ext (by show 3584 + k.val = 1792 * 2 + k.val; omega)))
theorem run3_apply (x0 : FVec Ideal S256x7168 .f32) (p : Fin 256) (k : Fin 1792) : run3 x0 (ix2 p k) = x0 (ix2 p (chunkPos 3 k)) := by
  refine (ld_cols (Val := Elt Ideal) (e := .f32) x0 5376 inb_S256x7168_S256x1792_0_5376 p k (by have := k.isLt; omega)).trans ?_
  exact congrArg x0 (congrArg (ix2 p) (Fin.ext (by show 5376 + k.val = 1792 * 3 + k.val; omega)))

/-- The body's row scale at row p of the block is the row scale of that row's 7168 entries. -/
theorem scale_apply (x0 : FVec Ideal S256x7168 .f32) (p : Fin 256) :
    k0_pay9 (F := Ideal) (k0_pay6 (run0 x0) (run1 x0) (run2 x0)) (k0_pay8 (run3 x0)) (ix2 p (0 : Fin 1))
      = scaleOf (fun h => x0 (ix2 p h)) := by
  have e0 : (∑ k : Fin 1792, run0 x0 (ix2 p k) * run0 x0 (ix2 p k))
      = ∑ k : Fin 1792, (fun h => x0 (ix2 p h) * x0 (ix2 p h)) (chunkPos 0 k) :=
    Finset.sum_congr rfl fun k _ => congrArg₂ (· * ·) (run0_apply x0 p k) (run0_apply x0 p k)
  have e1 : (∑ k : Fin 1792, run1 x0 (ix2 p k) * run1 x0 (ix2 p k))
      = ∑ k : Fin 1792, (fun h => x0 (ix2 p h) * x0 (ix2 p h)) (chunkPos 1 k) :=
    Finset.sum_congr rfl fun k _ => congrArg₂ (· * ·) (run1_apply x0 p k) (run1_apply x0 p k)
  have e2 : (∑ k : Fin 1792, run2 x0 (ix2 p k) * run2 x0 (ix2 p k))
      = ∑ k : Fin 1792, (fun h => x0 (ix2 p h) * x0 (ix2 p h)) (chunkPos 2 k) :=
    Finset.sum_congr rfl fun k _ => congrArg₂ (· * ·) (run2_apply x0 p k) (run2_apply x0 p k)
  have e3 : (∑ k : Fin 1792, run3 x0 (ix2 p k) * run3 x0 (ix2 p k))
      = ∑ k : Fin 1792, (fun h => x0 (ix2 p h) * x0 (ix2 p h)) (chunkPos 3 k) :=
    Finset.sum_congr rfl fun k _ => congrArg₂ (· * ·) (run3_apply x0 p k) (run3_apply x0 p k)
  rw [scale_unfold, run_sumsq, run_sumsq, run_sumsq, run_sumsq, Ideal.ofBits_zero_f32, inv_n, e0, e1, e2, e3,
    sum_chunks (fun h => x0 (ix2 p h) * x0 (ix2 p h))]
  rfl

/-! ## A normalised piece -/

/-- A run of x times the row scale spread along each row, times the weight run spread over the rows: at (p, k). -/
theorem normed_piece (r : FVec Ideal S256x1 .f32) (xc : FVec Ideal S256x1792 .f32) (wc : FVec Ideal S1x1792 .f32)
    (p : Fin 256) (k : Fin 1792) :
    mulf (mulf xc (broadcastTo S256x1792 r broadcasts_S256x1_S256x1792))
        (broadcastTo S256x1792 (shapeCast S1x1792 wc shapeCasts_S1x1792_S1x1792) broadcasts_S1x1792_S256x1792) (ix2 p k)
      = xc (ix2 p k) * r (ix2 p (0 : Fin 1)) * wc (ix2 (0 : Fin 1) k) := by
  rw [mulf_apply, mulf_apply, shapeCast_self, broadcastTo_a1_ab_apply, broadcastTo_1b_ab_apply]

/-- The four runs of the weight row. -/
abbrev wrun0 (x1 : FVec Ideal S1x7168 .f32) : FVec Ideal S1x1792 .f32 :=
  View.ld (Val := Elt Ideal) (e' := .f32) x1 (Rect.unit (s := S1x7168) ![0, 0] S1x1792.size inb_S1x7168_S1x1792_0_0)
abbrev wrun1 (x1 : FVec Ideal S1x7168 .f32) : FVec Ideal S1x1792 .f32 :=
  View.ld (Val := Elt Ideal) (e' := .f32) x1 (Rect.unit (s := S1x7168) ![0, 1792] S1x1792.size inb_S1x7168_S1x1792_0_1792)
abbrev wrun2 (x1 : FVec Ideal S1x7168 .f32) : FVec Ideal S1x1792 .f32 :=
  View.ld (Val := Elt Ideal) (e' := .f32) x1 (Rect.unit (s := S1x7168) ![0, 3584] S1x1792.size inb_S1x7168_S1x1792_0_3584)
abbrev wrun3 (x1 : FVec Ideal S1x7168 .f32) : FVec Ideal S1x1792 .f32 :=
  View.ld (Val := Elt Ideal) (e' := .f32) x1 (Rect.unit (s := S1x7168) ![0, 5376] S1x1792.size inb_S1x7168_S1x1792_0_5376)

theorem wrun0_apply (x1 : FVec Ideal S1x7168 .f32) (k : Fin 1792) : wrun0 x1 (ix2 (0 : Fin 1) k) = x1 (ix2 (0 : Fin 1) (chunkPos 0 k)) := by
  refine (ld_wcols (Val := Elt Ideal) (e := .f32) x1 0 inb_S1x7168_S1x1792_0_0 k (by have := k.isLt; omega)).trans ?_
  exact congrArg x1 (congrArg (ix2 (0 : Fin 1)) (Fin.ext (by show 0 + k.val = 1792 * 0 + k.val; omega)))
theorem wrun1_apply (x1 : FVec Ideal S1x7168 .f32) (k : Fin 1792) : wrun1 x1 (ix2 (0 : Fin 1) k) = x1 (ix2 (0 : Fin 1) (chunkPos 1 k)) := by
  refine (ld_wcols (Val := Elt Ideal) (e := .f32) x1 1792 inb_S1x7168_S1x1792_0_1792 k (by have := k.isLt; omega)).trans ?_
  exact congrArg x1 (congrArg (ix2 (0 : Fin 1)) (Fin.ext (by show 1792 + k.val = 1792 * 1 + k.val; omega)))
theorem wrun2_apply (x1 : FVec Ideal S1x7168 .f32) (k : Fin 1792) : wrun2 x1 (ix2 (0 : Fin 1) k) = x1 (ix2 (0 : Fin 1) (chunkPos 2 k)) := by
  refine (ld_wcols (Val := Elt Ideal) (e := .f32) x1 3584 inb_S1x7168_S1x1792_0_3584 k (by have := k.isLt; omega)).trans ?_
  exact congrArg x1 (congrArg (ix2 (0 : Fin 1)) (Fin.ext (by show 3584 + k.val = 1792 * 2 + k.val; omega)))
theorem wrun3_apply (x1 : FVec Ideal S1x7168 .f32) (k : Fin 1792) : wrun3 x1 (ix2 (0 : Fin 1) k) = x1 (ix2 (0 : Fin 1) (chunkPos 3 k)) := by
  refine (ld_wcols (Val := Elt Ideal) (e := .f32) x1 5376 inb_S1x7168_S1x1792_0_5376 k (by have := k.isLt; omega)).trans ?_
  exact congrArg x1 (congrArg (ix2 (0 : Fin 1)) (Fin.ext (by show 5376 + k.val = 1792 * 3 + k.val; omega)))

/-! ## The contraction -/

theorem lhs_0 (i : S256x384.Idx) (q : dot_S256x7168_S384x7168_S256x384_1_1_0_0_n_n.contr.Idx) : (dot_S256x7168_S384x7168_S256x384_1_1_0_0_n_n.lhsIdx i q 0).val = (i 0).val := by
  unfold DotDims.lhsIdx
  rw [dif_neg (show ¬(0 : Fin S256x7168.rank) ∈ dot_S256x7168_S384x7168_S256x384_1_1_0_0_n_n.lhsBatch by decide), dif_pos (show (0 : Fin S256x7168.rank) ∈ dot_S256x7168_S384x7168_S256x384_1_1_0_0_n_n.lhsNonContracting by decide)]
  rfl
theorem lhs_1 (i : S256x384.Idx) (q : dot_S256x7168_S384x7168_S256x384_1_1_0_0_n_n.contr.Idx) : (dot_S256x7168_S384x7168_S256x384_1_1_0_0_n_n.lhsIdx i q 1).val = (q ⟨0, by decide⟩).val :=
  dot_S256x7168_S384x7168_S256x384_1_1_0_0_n_n.lhsIdx_val_of_single rfl i q
theorem rhs_0 (i : S256x384.Idx) (q : dot_S256x7168_S384x7168_S256x384_1_1_0_0_n_n.contr.Idx) : (dot_S256x7168_S384x7168_S256x384_1_1_0_0_n_n.rhsIdx i q 0).val = (i 1).val := by
  unfold DotDims.rhsIdx
  rw [dif_neg (show ¬(0 : Fin S384x7168.rank) ∈ dot_S256x7168_S384x7168_S256x384_1_1_0_0_n_n.rhsBatch by decide), dif_pos (show (0 : Fin S384x7168.rank) ∈ dot_S256x7168_S384x7168_S256x384_1_1_0_0_n_n.rhsNonContracting by decide)]
  rfl
theorem rhs_1 (i : S256x384.Idx) (q : dot_S256x7168_S384x7168_S256x384_1_1_0_0_n_n.contr.Idx) : (dot_S256x7168_S384x7168_S256x384_1_1_0_0_n_n.rhsIdx i q 1).val = (q ⟨0, by decide⟩).val :=
  dot_S256x7168_S384x7168_S256x384_1_1_0_0_n_n.rhsIdx_val_of_single rfl i q

/-- The product into a zero accumulator, contracting the 7168 columns of both operands: at (p, q), Σ_h A[p, h] · B[q, h]. -/
theorem contraction_apply (A : FVec Ideal S256x7168 .bf16) (B : FVec Ideal S384x7168 .bf16) (p : Fin 256) (q : Fin 384) :
    matmul dot_S256x7168_S384x7168_S256x384_1_1_0_0_n_n none A B (constant S256x384 .f32 0x00000000#32) (ix2 p q)
      = ∑ h : Fin 7168, A (ix2 p h) * B (ix2 q h) := by
  simp only [matmul]
  rw [Ideal.matmul_constant_zero_apply, ← Equiv.sum_comp (ValueIdx.contrEquiv1 dot_S256x7168_S384x7168_S256x384_1_1_0_0_n_n 7168 rfl rfl).symm]
  refine Finset.sum_congr rfl fun k _ => ?_
  have hk := ValueIdx.contrEquiv1_symm_val dot_S256x7168_S384x7168_S256x384_1_1_0_0_n_n 7168 rfl rfl k
  have el : dot_S256x7168_S384x7168_S256x384_1_1_0_0_n_n.lhsIdx (ix2 p q) ((ValueIdx.contrEquiv1 dot_S256x7168_S384x7168_S256x384_1_1_0_0_n_n 7168 rfl rfl).symm k) = ix2 p k := funext fun a => Fin.ext (by
    match a with
    | ⟨0, _⟩ => exact lhs_0 _ _
    | ⟨1, _⟩ => exact (lhs_1 _ _).trans hk)
  have er : dot_S256x7168_S384x7168_S256x384_1_1_0_0_n_n.rhsIdx (ix2 p q) ((ValueIdx.contrEquiv1 dot_S256x7168_S384x7168_S256x384_1_1_0_0_n_n 7168 rfl rfl).symm k) = ix2 q k := funext fun a => Fin.ext (by
    match a with
    | ⟨0, _⟩ => exact rhs_0 _ _
    | ⟨1, _⟩ => exact (rhs_1 _ _).trans hk)
  rw [el, er]

/-- The logits piece: the contraction of A with B, scaled row by row by r: at (p, q). -/
theorem logits_piece (r : FVec Ideal S256x1 .f32) (A : FVec Ideal S256x7168 .bf16) (B : FVec Ideal S384x7168 .bf16)
    (p : Fin 256) (q : Fin 384) :
    k0_pay2 (F := Ideal) r A B (ix2 p q) = (∑ h : Fin 7168, A (ix2 p h) * B (ix2 q h)) * r (ix2 p (0 : Fin 1)) := by
  unfold k0_pay2
  refine (mulf_apply _ _ _).trans ?_
  rw [shapeCast_self, contraction_apply, broadcastTo_a1_ab_apply]

end Cert.KernelIdeal.Block

end
-- ==== Proof.Block.lean ====
/-
  What one grid point leaves in its two output blocks, as closed functions of the point's input blocks.

  The normalised block [256, 7168] is stored in four column runs; every run's payload is the same function of the
  block index, x0[p, c] · r(p) · w[0, c], and the four runs cover the block: so the block holds that function.
  The logits block [256, 384] is stored once; its left operand is the bf16 scratch, filled in the same four runs with
  the (narrowed, hence unchanged) entries of x0 before it is read back whole: so the scratch holds x0 and the block
  holds (Σ_h x0[p, h] · gf[q, h]) · r(p).
-/
import proofs.«429081_j4638564680113_3_alg».proof.Proof.Payload
import Idealize.ShloMosaic.Lib.Tactic

set_option maxRecDepth 16384

noncomputable section

namespace Cert.KernelIdeal.Block

open Cert.KernelIdeal Cert.KernelIdeal.Facts₀
open Cert.KernelIdeal.Gen (k0_pay1 k0_pay2 k0_pay3 k0_pay4 k0_pay5 k0_pay6 k0_pay7 k0_pay8 k0_pay9 k0_pay10 k0_pay11 k0_pay12
  out0_A_3 out0_A_4 cover0_A_3 cover0_A_4 kernelRun0_A)
open Idealize.ShloMosaic Idealize.ShloMosaic.TcCoe Idealize.ShloMosaic.ValueIdx Idealize.SL.Sem Cert.RmsGate Cert.LibKeepdims
open scoped BigOperators

theorem hz2 : (![0, 0] : Fin 2 → Nat) = fun _ => 0 := funext fun a => by fin_cases a <;> rfl

/-! ## The two block functions -/

/-- x0[p, c] · r(p) · w[0, c]. -/
def blockNormed (x0 : FVec Ideal S256x7168 .f32) (x1 : FVec Ideal S1x7168 .f32) : FVec Ideal S256x7168 .f32 :=
  fun y => x0 y * scaleOf (fun h => x0 (ix2 (y 0) h)) * x1 (ix2 (0 : Fin 1) (y 1))

/-- (Σ_h x0[p, h] · gf[q, h]) · r(p). -/
def blockLogits (x0 : FVec Ideal S256x7168 .f32) (x2 : FVec Ideal S384x7168 .bf16) : FVec Ideal S256x384 .f32 :=
  fun y => (∑ h : Fin 7168, x0 (ix2 (y 0) h) * x2 (ix2 (y 1) h)) * scaleOf (fun h => x0 (ix2 (y 0) h))

/-! ## Where a run's entries sit in the block, and that the four runs cover it -/

theorem emb_run0 (p : Fin 256) (k : Fin 1792) : (Rect.unit (s := S256x7168) ![0, 0] S256x1792.size inb_S256x7168_S256x1792_0_0).emb (ix2 p k) = ix2 p (chunkPos 0 k) :=
  funext fun a => Fin.ext (by
    match a with
    | ⟨0, _⟩ => show 0 + 1 * p.val = p.val; omega
    | ⟨1, _⟩ => show 0 + 1 * k.val = 1792 * 0 + k.val; omega)
theorem emb_run1 (p : Fin 256) (k : Fin 1792) : (Rect.unit (s := S256x7168) ![0, 1792] S256x1792.size inb_S256x7168_S256x1792_0_1792).emb (ix2 p k) = ix2 p (chunkPos 1 k) :=
  funext fun a => Fin.ext (by
    match a with
    | ⟨0, _⟩ => show 0 + 1 * p.val = p.val; omega
    | ⟨1, _⟩ => show 1792 + 1 * k.val = 1792 * 1 + k.val; omega)
theorem emb_run2 (p : Fin 256) (k : Fin 1792) : (Rect.unit (s := S256x7168) ![0, 3584] S256x1792.size inb_S256x7168_S256x1792_0_3584).emb (ix2 p k) = ix2 p (chunkPos 2 k) :=
  funext fun a => Fin.ext (by
    match a with
    | ⟨0, _⟩ => show 0 + 1 * p.val = p.val; omega
    | ⟨1, _⟩ => show 3584 + 1 * k.val = 1792 * 2 + k.val; omega)
theorem emb_run3 (p : Fin 256) (k : Fin 1792) : (Rect.unit (s := S256x7168) ![0, 5376] S256x1792.size inb_S256x7168_S256x1792_0_5376).emb (ix2 p k) = ix2 p (chunkPos 3 k) :=
  funext fun a => Fin.ext (by
    match a with
    | ⟨0, _⟩ => show 0 + 1 * p.val = p.val; omega
    | ⟨1, _⟩ => show 5376 + 1 * k.val = 1792 * 3 + k.val; omega)

/-- Every index of the block lies in one of the four runs (by its column), whatever the runs hold. -/
theorem cover_runs {Val : EltTy → Type} {e : EltTy} (w3 w2 w1 w0 : S256x1792.Idx → Val e) (y : S256x7168.Idx) :
    ∃ pc ∈ ([⟨(Rect.unit (s := S256x7168) ![0, 5376] S256x1792.size inb_S256x7168_S256x1792_0_5376), w3⟩, ⟨(Rect.unit (s := S256x7168) ![0, 3584] S256x1792.size inb_S256x7168_S256x1792_0_3584), w2⟩, ⟨(Rect.unit (s := S256x7168) ![0, 1792] S256x1792.size inb_S256x7168_S256x1792_0_1792), w1⟩, ⟨(Rect.unit (s := S256x7168) ![0, 0] S256x1792.size inb_S256x7168_S256x1792_0_0), w0⟩] : List (View.Piece Val S256x7168 e)),
      y ∈ pc.1.set := by
  have h0 : (y 0).val < 256 := idx2_lt0 y
  have h1 : (y 1).val < 7168 := idx2_lt1 y
  by_cases c1 : (y 1).val < 1792
  · refine ⟨⟨(Rect.unit (s := S256x7168) ![0, 0] S256x1792.size inb_S256x7168_S256x1792_0_0), w0⟩, by simp, ?_⟩
    show y ∈ (Rect.unit (s := S256x7168) ![0, 0] S256x1792.size inb_S256x7168_S256x1792_0_0).set
    rw [Rect.mem_set_unit]
    intro a
    match a with
    | ⟨0, _⟩ => exact ⟨Nat.zero_le _, by show (y 0).val < 0 + 256; omega⟩
    | ⟨1, _⟩ => exact ⟨Nat.zero_le _, by show (y 1).val < 0 + 1792; omega⟩
  by_cases c2 : (y 1).val < 3584
  · refine ⟨⟨(Rect.unit (s := S256x7168) ![0, 1792] S256x1792.size inb_S256x7168_S256x1792_0_1792), w1⟩, by simp, ?_⟩
    show y ∈ (Rect.unit (s := S256x7168) ![0, 1792] S256x1792.size inb_S256x7168_S256x1792_0_1792).set
    rw [Rect.mem_set_unit]
    intro a
    match a with
    | ⟨0, _⟩ => exact ⟨Nat.zero_le _, by show (y 0).val < 0 + 256; omega⟩
    | ⟨1, _⟩ => exact ⟨by show 1792 ≤ (y 1).val; omega, by show (y 1).val < 1792 + 1792; omega⟩
  by_cases c3 : (y 1).val < 5376
  · refine ⟨⟨(Rect.unit (s := S256x7168) ![0, 3584] S256x1792.size inb_S256x7168_S256x1792_0_3584), w2⟩, by simp, ?_⟩
    show y ∈ (Rect.unit (s := S256x7168) ![0, 3584] S256x1792.size inb_S256x7168_S256x1792_0_3584).set
    rw [Rect.mem_set_unit]
    intro a
    match a with
    | ⟨0, _⟩ => exact ⟨Nat.zero_le _, by show (y 0).val < 0 + 256; omega⟩
    | ⟨1, _⟩ => exact ⟨by show 3584 ≤ (y 1).val; omega, by show (y 1).val < 3584 + 1792; omega⟩
  · refine ⟨⟨(Rect.unit (s := S256x7168) ![0, 5376] S256x1792.size inb_S256x7168_S256x1792_0_5376), w3⟩, by simp, ?_⟩
    show y ∈ (Rect.unit (s := S256x7168) ![0, 5376] S256x1792.size inb_S256x7168_S256x1792_0_5376).set
    rw [Rect.mem_set_unit]
    intro a
    match a with
    | ⟨0, _⟩ => exact ⟨Nat.zero_le _, by show (y 0).val < 0 + 256; omega⟩
    | ⟨1, _⟩ => exact ⟨by show 5376 ≤ (y 1).val; omega, by show (y 1).val < 5376 + 1792; omega⟩

/-! ## Each stored run is the block function on its columns -/

theorem normed_run0 (x0 : FVec Ideal S256x7168 .f32) (x1 : FVec Ideal S1x7168 .f32) (p : Fin 256) (k : Fin 1792) :
    k0_pay10 (F := Ideal) (k0_pay6 (run0 x0) (run1 x0) (run2 x0)) (k0_pay8 (run3 x0)) (run0 x0) (wrun0 x1) (ix2 p k)
      = blockNormed x0 x1 ((Rect.unit (s := S256x7168) ![0, 0] S256x1792.size inb_S256x7168_S256x1792_0_0).emb (ix2 p k)) := by
  rw [emb_run0]
  refine (normed_piece (k0_pay9 (F := Ideal) (k0_pay6 (run0 x0) (run1 x0) (run2 x0)) (k0_pay8 (run3 x0))) (run0 x0) (wrun0 x1) p k).trans ?_
  rw [scale_apply, run0_apply, wrun0_apply]
  rfl
theorem normed_run1 (x0 : FVec Ideal S256x7168 .f32) (x1 : FVec Ideal S1x7168 .f32) (p : Fin 256) (k : Fin 1792) :
    k0_pay11 (F := Ideal) (k0_pay6 (run0 x0) (run1 x0) (run2 x0)) (k0_pay8 (run3 x0)) (run1 x0) (wrun1 x1) (ix2 p k)
      = blockNormed x0 x1 ((Rect.unit (s := S256x7168) ![0, 1792] S256x1792.size inb_S256x7168_S256x1792_0_1792).emb (ix2 p k)) := by
  rw [emb_run1]
  refine (normed_piece (k0_pay9 (F := Ideal) (k0_pay6 (run0 x0) (run1 x0) (run2 x0)) (k0_pay8 (run3 x0))) (run1 x0) (wrun1 x1) p k).trans ?_
  rw [scale_apply, run1_apply, wrun1_apply]
  rfl
theorem normed_run2 (x0 : FVec Ideal S256x7168 .f32) (x1 : FVec Ideal S1x7168 .f32) (p : Fin 256) (k : Fin 1792) :
    k0_pay12 (F := Ideal) (k0_pay6 (run0 x0) (run1 x0) (run2 x0)) (k0_pay8 (run3 x0)) (run2 x0) (wrun2 x1) (ix2 p k)
      = blockNormed x0 x1 ((Rect.unit (s := S256x7168) ![0, 3584] S256x1792.size inb_S256x7168_S256x1792_0_3584).emb (ix2 p k)) := by
  rw [emb_run2]
  refine (normed_piece (k0_pay9 (F := Ideal) (k0_pay6 (run0 x0) (run1 x0) (run2 x0)) (k0_pay8 (run3 x0))) (run2 x0) (wrun2 x1) p k).trans ?_
  rw [scale_apply, run2_apply, wrun2_apply]
  rfl
theorem normed_run3 (x0 : FVec Ideal S256x7168 .f32) (x1 : FVec Ideal S1x7168 .f32) (p : Fin 256) (k : Fin 1792) :
    k0_pay1 (F := Ideal) (k0_pay9 (k0_pay6 (run0 x0) (run1 x0) (run2 x0)) (k0_pay8 (run3 x0))) (run3 x0) (wrun3 x1) (ix2 p k)
      = blockNormed x0 x1 ((Rect.unit (s := S256x7168) ![0, 5376] S256x1792.size inb_S256x7168_S256x1792_0_5376).emb (ix2 p k)) := by
  rw [emb_run3]
  refine (normed_piece (k0_pay9 (F := Ideal) (k0_pay6 (run0 x0) (run1 x0) (run2 x0)) (k0_pay8 (run3 x0))) (run3 x0) (wrun3 x1) p k).trans ?_
  rw [scale_apply, run3_apply, wrun3_apply]
  rfl

theorem scratch_run0 (x0 : FVec Ideal S256x7168 .f32) (p : Fin 256) (k : Fin 1792) :
    k0_pay3 (F := Ideal) (run0 x0) (ix2 p k) = x0 ((Rect.unit (s := S256x7168) ![0, 0] S256x1792.size inb_S256x7168_S256x1792_0_0).emb (ix2 p k)) := by
  rw [emb_run0]
  unfold k0_pay3
  rw [shapeCast_self]
  exact run0_apply x0 p k
theorem scratch_run1 (x0 : FVec Ideal S256x7168 .f32) (p : Fin 256) (k : Fin 1792) :
    k0_pay4 (F := Ideal) (run1 x0) (ix2 p k) = x0 ((Rect.unit (s := S256x7168) ![0, 1792] S256x1792.size inb_S256x7168_S256x1792_0_1792).emb (ix2 p k)) := by
  rw [emb_run1]
  unfold k0_pay4
  rw [shapeCast_self]
  exact run1_apply x0 p k
theorem scratch_run2 (x0 : FVec Ideal S256x7168 .f32) (p : Fin 256) (k : Fin 1792) :
    k0_pay5 (F := Ideal) (run2 x0) (ix2 p k) = x0 ((Rect.unit (s := S256x7168) ![0, 3584] S256x1792.size inb_S256x7168_S256x1792_0_3584).emb (ix2 p k)) := by
  rw [emb_run2]
  unfold k0_pay5
  rw [shapeCast_self]
  exact run2_apply x0 p k
theorem scratch_run3 (x0 : FVec Ideal S256x7168 .f32) (p : Fin 256) (k : Fin 1792) :
    k0_pay7 (F := Ideal) (run3 x0) (ix2 p k) = x0 ((Rect.unit (s := S256x7168) ![0, 5376] S256x1792.size inb_S256x7168_S256x1792_0_5376).emb (ix2 p k)) := by
  rw [emb_run3]
  unfold k0_pay7
  rw [shapeCast_self]
  exact run3_apply x0 p k

/-! ## The scratch read back whole holds the block x0 -/

theorem scratch_read (v : View sig .tc .vmem S256x7168 .bf16) (x0 : FVec Ideal S256x7168 .f32) :
    v.readCov (Val := Elt Ideal)
        [⟨(Rect.unit (s := S256x7168) ![0, 5376] S256x1792.size inb_S256x7168_S256x1792_0_5376), k0_pay7 (F := Ideal) (run3 x0)⟩, ⟨(Rect.unit (s := S256x7168) ![0, 3584] S256x1792.size inb_S256x7168_S256x1792_0_3584), k0_pay5 (F := Ideal) (run2 x0)⟩,
         ⟨(Rect.unit (s := S256x7168) ![0, 1792] S256x1792.size inb_S256x7168_S256x1792_0_1792), k0_pay4 (F := Ideal) (run1 x0)⟩, ⟨(Rect.unit (s := S256x7168) ![0, 0] S256x1792.size inb_S256x7168_S256x1792_0_0), k0_pay3 (F := Ideal) (run0 x0)⟩]
        (Rect.unit (s := S256x7168) ![0, 0] S256x7168.size inb_S256x7168_S256x7168_0_0).toLoadRect
      = fun y => x0 y := by
  rw [View.readCov_eq_canon_ld _ _ _ (cover_runs _ _ _ _), View.ld_unit_zero hz2]
  funext y
  refine View.canon_apply_of_pieces (Val := Elt Ideal) (e := .bf16) (fun y => x0 y) _ ?_ y (cover_runs _ _ _ _ y)
  intro pc hpc x
  simp only [List.mem_cons, List.not_mem_nil, or_false] at hpc
  rcases hpc with rfl | rfl | rfl | rfl
  · obtain ⟨p, k, rfl⟩ : ∃ (p : Fin 256) (k : Fin 1792), x = ix2 p k := ⟨x 0, x 1, eq_ix2 x⟩
    exact scratch_run3 x0 p k
  · obtain ⟨p, k, rfl⟩ : ∃ (p : Fin 256) (k : Fin 1792), x = ix2 p k := ⟨x 0, x 1, eq_ix2 x⟩
    exact scratch_run2 x0 p k
  · obtain ⟨p, k, rfl⟩ : ∃ (p : Fin 256) (k : Fin 1792), x = ix2 p k := ⟨x 0, x 1, eq_ix2 x⟩
    exact scratch_run1 x0 p k
  · obtain ⟨p, k, rfl⟩ : ∃ (p : Fin 256) (k : Fin 1792), x = ix2 p k := ⟨x 0, x 1, eq_ix2 x⟩
    exact scratch_run0 x0 p k

/-! ## The two output blocks -/

/-- The normalised block after the body. -/
theorem out3_eq (c : Dev nD) (i : grid0.Coords) (arg1 : Memref sig .tc .vmem S256x7168 .f32) (harg1 : arg1.IsWhole) (arg2 : Memref sig .tc .vmem S1x7168 .f32) (harg2 : arg2.IsWhole) (arg3 : Memref sig .tc .vmem S384x7168 .bf16) (harg3 : arg3.IsWhole) (arg4 : Memref sig .tc .vmem S256x7168 .f32) (harg4 : arg4.IsWhole) (arg5 : Memref sig .tc .vmem S256x384 .f32) (harg5 : arg5.IsWhole) (arg6 : Memref sig .tc .vmem S256x7168 .bf16) (harg6 : arg6.IsWhole)
    (x0 : Vec Ideal S256x7168 .f32) (x1 : Vec Ideal S1x7168 .f32) (x2 : Vec Ideal S384x7168 .bf16) :
    out0_A_3 (F := Ideal) c i arg1 harg1 arg2 harg2 arg3 harg3 arg4 harg4 arg5 harg5 arg6 harg6 x0 x1 x2 = blockNormed x0 x1 := by
  unfold out0_A_3
  rw [View.read_writes_eq_canon _ _ _ (cover0_A_3 c i arg1 harg1 arg2 harg2 arg3 harg3 arg4 harg4 arg5 harg5 arg6 harg6 x0 x1 x2)]
  unfold kernelRun0_A
  dsimp only
  sl_unfold_words
  simp only [View.readAt_eq_ld, harg1.read_unread, harg2.read_unread]
  funext y
  refine View.canon_apply_of_pieces (Val := Elt Ideal) (e := .f32) (blockNormed x0 x1) _ ?_ y (cover_runs _ _ _ _ y)
  intro pc hpc x
  simp only [List.mem_cons, List.not_mem_nil, or_false] at hpc
  rcases hpc with rfl | rfl | rfl | rfl
  · obtain ⟨p, k, rfl⟩ : ∃ (p : Fin 256) (k : Fin 1792), x = ix2 p k := ⟨x 0, x 1, eq_ix2 x⟩
    exact normed_run3 x0 x1 p k
  · obtain ⟨p, k, rfl⟩ : ∃ (p : Fin 256) (k : Fin 1792), x = ix2 p k := ⟨x 0, x 1, eq_ix2 x⟩
    exact normed_run2 x0 x1 p k
  · obtain ⟨p, k, rfl⟩ : ∃ (p : Fin 256) (k : Fin 1792), x = ix2 p k := ⟨x 0, x 1, eq_ix2 x⟩
    exact normed_run1 x0 x1 p k
  · obtain ⟨p, k, rfl⟩ : ∃ (p : Fin 256) (k : Fin 1792), x = ix2 p k := ⟨x 0, x 1, eq_ix2 x⟩
    exact normed_run0 x0 x1 p k

/-- The logits block after the body. -/
theorem out4_eq (c : Dev nD) (i : grid0.Coords) (arg1 : Memref sig .tc .vmem S256x7168 .f32) (harg1 : arg1.IsWhole) (arg2 : Memref sig .tc .vmem S1x7168 .f32) (harg2 : arg2.IsWhole) (arg3 : Memref sig .tc .vmem S384x7168 .bf16) (harg3 : arg3.IsWhole) (arg4 : Memref sig .tc .vmem S256x7168 .f32) (harg4 : arg4.IsWhole) (arg5 : Memref sig .tc .vmem S256x384 .f32) (harg5 : arg5.IsWhole) (arg6 : Memref sig .tc .vmem S256x7168 .bf16) (harg6 : arg6.IsWhole)
    (x0 : Vec Ideal S256x7168 .f32) (x1 : Vec Ideal S1x7168 .f32) (x2 : Vec Ideal S384x7168 .bf16) :
    out0_A_4 (F := Ideal) c i arg1 harg1 arg2 harg2 arg3 harg3 arg4 harg4 arg5 harg5 arg6 harg6 x0 x1 x2 = blockLogits x0 x2 := by
  unfold out0_A_4
  rw [View.read_writes_eq_canon _ _ _ (cover0_A_4 c i arg1 harg1 arg2 harg2 arg3 harg3 arg4 harg4 arg5 harg5 arg6 harg6 x0 x1 x2)]
  unfold kernelRun0_A
  dsimp only
  sl_unfold_words
  rw [View.canon_unit_zero hz2]
  simp only [View.readAt_eq_ld, harg1.read_unread, harg3.read_unread, View.ld_unit_zero (S := S384x7168) hz2]
  rw [scratch_read arg6.view x0]
  funext y
  obtain ⟨p, q, rfl⟩ : ∃ (p : Fin 256) (q : Fin 384), y = ix2 p q := ⟨y 0, y 1, eq_ix2 y⟩
  refine (logits_piece (k0_pay9 (F := Ideal) (k0_pay6 (run0 x0) (run1 x0) (run2 x0)) (k0_pay8 (run3 x0))) (fun y => x0 y) x2 p q).trans ?_
  rw [scale_apply]
  rfl

end Cert.KernelIdeal.Block

end
-- ==== Proof.Whole.lean ====
/-
  From blocks to arrays: what the two result arrays hold after the whole grid, as functions of the three arguments.

  Grid point t (of 32) works on token rows 256·t … 256·t + 255.  Its input blocks are: rows 256·t + p of x; the one
  weight row, which the host made by viewing w as [1, 7168]; and the whole folded gate matrix, which the host made
  as g[e, h] · w[h] (narrowed to bf16: unchanged over the extended reals).  So the normalised block at t is rows
  256·t + p of normed, and the logits block at t is rows 256·t + p of the factored logits with gf = g · w.  Every
  row lies in exactly the block of t = row / 256, hence each array is the one function everywhere.
-/
import proofs.«429081_j4638564680113_3_alg».proof.Proof.Block
import proofs.«429081_j4638564680113_3_alg».proof.Proof.Gen.KernelIdeal.Value
import Idealize.ShloMosaic.Lib.StableHlo.Run

set_option maxRecDepth 16384

noncomputable section

namespace Cert.KernelIdeal.Whole

open Cert.KernelIdeal Cert.KernelIdeal.Gen Cert.KernelIdeal.Block
open Idealize.ShloMosaic Idealize.ShloMosaic.TcCoe Idealize.ShloMosaic.ValueIdx Idealize.SL.Sem Cert.RmsGate
open Idealize.ShloMosaic.Pipeline (Dat)
open scoped BigOperators

variable (m : (ℓ : Loc nD τ sig) → Buf (Elt Ideal) ℓ) (ρ : Dev nD → PrngReg)

/-! ## The arguments, the arrays the region finds, and the blocks of a point -/

abbrev argX (c : Dev nD) : FVec Ideal S8192x7168 .f32 := m ((c : Thread nD τ).loc main_arg0)
abbrev argW (c : Dev nD) : FVec Ideal S7168 .f32 := m ((c : Thread nD τ).loc main_arg1)
abbrev argG (c : Dev nD) : FVec Ideal S384x7168 .f32 := m ((c : Thread nD τ).loc main_arg2)

abbrev xblk (c : Dev nD) (t : Fin cfg0.N) : FVec Ideal S256x7168 .f32 := iblk m c 0 t
abbrev wblk (c : Dev nD) (t : Fin cfg0.N) : FVec Ideal S1x7168 .f32 := iblk m c 1 t
abbrev gblk (c : Dev nD) (t : Fin cfg0.N) : FVec Ideal S384x7168 .bf16 := iblk m c 2 t

/-- The weight row as the region finds it: w viewed as [1, 7168]. -/
theorem wrow_eq (c : Dev nD) : (V m c main_v0 : S1x7168.Idx → EReal)
    = shapeCast S1x7168 (argW m c) Facts₀.shapeCasts_S7168_S1x7168 := by
  dsimp only [V, hostOps0]; after_results <;> rfl

/-- The folded gate matrix as the region finds it: g times w spread over the 384 rows, narrowed. -/
theorem gfold_eq (c : Dev nD) : (V m c main_v4 : S384x7168.Idx → EReal)
    = mulf (argG m c) (broadcastInDim S384x7168 ![0, 1] Facts₀.bcast_S1x7168_S384x7168_0_1
        (broadcastInDim S1x7168 ![1] Facts₀.bcast_S7168_S1x7168_1 (argW m c))) := by
  dsimp only [V, hostOps0]; after_results <;> rfl

theorem wrow_apply (c : Dev nD) (h : Fin 7168) : (V m c main_v0 : S1x7168.Idx → EReal) (ix2 (0 : Fin 1) h) = argW m c (ix1 h) := by
  rw [wrow_eq]; exact shapeCast_a_1a_apply _ _ 0 h

theorem gfold_apply (c : Dev nD) (q : Fin 384) (h : Fin 7168) :
    (V m c main_v4 : S384x7168.Idx → EReal) (ix2 q h) = argG m c (ix2 q h) * argW m c (ix1 h) := by
  rw [gfold_eq]
  refine (mulf_apply _ _ _).trans ?_
  refine congrArg (argG m c (ix2 q h) * ·) ?_
  refine (broadcastInDim_apply _ Facts₀.bcast_S1x7168_S384x7168_0_1 _ (ix2 q h) (ix2 (0 : Fin 1) h) (fun a => match a with
    | ⟨0, _⟩ => by show 0 = if (1 : Nat) = 1 then 0 else q.val; rw [if_pos rfl]
    | ⟨1, _⟩ => by show h.val = if (7168 : Nat) = 1 then 0 else h.val; rw [if_neg (by decide)])).trans ?_
  exact broadcastInDim_apply _ Facts₀.bcast_S7168_S1x7168_1 _ (ix2 (0 : Fin 1) h) (ix1 h) (fun a => match a with
    | ⟨0, _⟩ => by show h.val = if (7168 : Nat) = 1 then 0 else h.val; rw [if_neg (by decide)])

/-- The printed index maps over the grid: x and the two results move one block of rows per point; the weight row
    and the gate matrix stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem row_lt (t : Fin cfg0.N) (p : Fin 256) : 256 * t.val + p.val < 8192 := by
  have hN : cfg0.N = 32 := N_0
  have := t.isLt; have := p.isLt; omega

/-- Row 256·t + p of the arrays. -/
abbrev rowOf (t : Fin cfg0.N) (p : Fin 256) : Fin 8192 := ⟨256 * t.val + p.val, row_lt t p⟩

theorem xblk_apply (c : Dev nD) (t : Fin cfg0.N) (p : Fin 256) (h : Fin 7168) :
    xblk m c t (ix2 p h) = argX m c (ix2 (rowOf t p) h) := by
  obtain ⟨e0, e1, -⟩ := idx_facts t
  show V m c main_arg0 (((cfg0.win 0).blk t).view.emb (ix2 p h)) = _
  rw [V_main_arg0]
  refine congrArg _ (funext fun a => Fin.ext ?_)
  match a with
  | ⟨0, _⟩ => show win0_0.index t (0 : Fin 2) * 256 + 1 * p.val = 256 * t.val + p.val; rw [e0]; omega
  | ⟨1, _⟩ => show win0_0.index t (1 : Fin 2) * 7168 + 1 * h.val = h.val; rw [e1]; omega

theorem wblk_apply (c : Dev nD) (t : Fin cfg0.N) (h : Fin 7168) :
    wblk m c t (ix2 (0 : Fin 1) h) = argW m c (ix1 h) := by
  obtain ⟨-, -, e2, e3, -⟩ := idx_facts t
  show (V m c main_v0 : S1x7168.Idx → EReal) (((cfg0.win 1).blk t).view.emb (ix2 (0 : Fin 1) h)) = _
  refine (congrArg _ (funext fun a => Fin.ext ?_)).trans (wrow_apply m c h)
  match a with
  | ⟨0, _⟩ => show win0_1.index t (0 : Fin 2) * 1 + 1 * 0 = 0; rw [e2]
  | ⟨1, _⟩ => show win0_1.index t (1 : Fin 2) * 7168 + 1 * h.val = h.val; rw [e3]; omega

theorem gblk_apply (c : Dev nD) (t : Fin cfg0.N) (q : Fin 384) (h : Fin 7168) :
    gblk m c t (ix2 q h) = argG m c (ix2 q h) * argW m c (ix1 h) := by
  obtain ⟨-, -, -, -, e4, e5, -⟩ := idx_facts t
  show (V m c main_v4 : S384x7168.Idx → EReal) (((cfg0.win 2).blk t).view.emb (ix2 q h)) = _
  refine (congrArg _ (funext fun a => Fin.ext ?_)).trans (gfold_apply m c q h)
  match a with
  | ⟨0, _⟩ => show win0_2.index t (0 : Fin 2) * 384 + 1 * q.val = q.val; rw [e4]; omega
  | ⟨1, _⟩ => show win0_2.index t (1 : Fin 2) * 7168 + 1 * h.val = h.val; rw [e5]; omega

/-! ## What a point writes back is its rows of the whole-array functions -/

theorem flushed3_eq (c : Dev nD) (t : Fin cfg0.N) :
    (dats m 0 c).flushed 3 t = ((cfg0.win 3).blk t).view.read (Elt Ideal) (normed (argX m c) (argW m c)) := by
  refine (Value.flushed3_A m c t).trans ?_
  refine (congrArg ((cfg0.win 3).cut (grid0.coords t)) (out3_eq c (grid0.coords t) (ms0_0 t) (hs0_0 t) (ms0_1 t) (hs0_1 t) (ms0_2 t) (hs0_2 t) (ms0_3 t) (hs0_3 t) (ms0_4 t) (hs0_4 t) scM0_0 (Memref.isWhole_whole _) (xblk m c t) (wblk m c t) (gblk m c t))).trans ?_
  obtain ⟨-, -, -, -, -, -, e6, e7, -⟩ := idx_facts t
  funext j
  obtain ⟨p, k, rfl⟩ : ∃ (p : Fin 256) (k : Fin 7168), j = ix2 p k := ⟨j 0, j 1, eq_ix2 j⟩
  have he : ((cfg0.win 3).blk t).view.emb (ix2 p k) = (ix2 (rowOf t p) k : S8192x7168.Idx) := funext fun a => Fin.ext (by
    match a with
    | ⟨0, _⟩ => show win0_3.index t (0 : Fin 2) * 256 + 1 * p.val = 256 * t.val + p.val; rw [e6]; omega
    | ⟨1, _⟩ => show win0_3.index t (1 : Fin 2) * 7168 + 1 * k.val = k.val; rw [e7]; omega)
  show blockNormed (xblk m c t) (wblk m c t) (ix2 p k) = normed (argX m c) (argW m c) (((cfg0.win 3).blk t).view.emb (ix2 p k))
  rw [he]
  have e1 : (fun h => xblk m c t (ix2 p h)) = fun h => argX m c (ix2 (rowOf t p) h) := funext fun h => xblk_apply m c t p h
  show xblk m c t (ix2 p k) * scaleOf (fun h => xblk m c t (ix2 p h)) * wblk m c t (ix2 (0 : Fin 1) k)
      = argX m c (ix2 (rowOf t p) k) * scaleOf (fun h => argX m c (ix2 (rowOf t p) h)) * argW m c (ix1 k)
  rw [xblk_apply m c t p k, e1, wblk_apply m c t k]

theorem flushed4_eq (c : Dev nD) (t : Fin cfg0.N) :
    (dats m 0 c).flushed 4 t
      = ((cfg0.win 4).blk t).view.read (Elt Ideal) (logitsFactored (argX m c) (argW m c) (argG m c)) := by
  refine (Value.flushed4_A m c t).trans ?_
  refine (congrArg ((cfg0.win 4).cut (grid0.coords t)) (out4_eq c (grid0.coords t) (ms0_0 t) (hs0_0 t) (ms0_1 t) (hs0_1 t) (ms0_2 t) (hs0_2 t) (ms0_3 t) (hs0_3 t) (ms0_4 t) (hs0_4 t) scM0_0 (Memref.isWhole_whole _) (xblk m c t) (wblk m c t) (gblk m c t))).trans ?_
  obtain ⟨-, -, -, -, -, -, -, -, e8, e9⟩ := idx_facts t
  funext j
  obtain ⟨p, q, rfl⟩ : ∃ (p : Fin 256) (q : Fin 384), j = ix2 p q := ⟨j 0, j 1, eq_ix2 j⟩
  have he : ((cfg0.win 4).blk t).view.emb (ix2 p q) = (ix2 (rowOf t p) q : S8192x384.Idx) := funext fun a => Fin.ext (by
    match a with
    | ⟨0, _⟩ => show win0_4.index t (0 : Fin 2) * 256 + 1 * p.val = 256 * t.val + p.val; rw [e8]; omega
    | ⟨1, _⟩ => show win0_4.index t (1 : Fin 2) * 384 + 1 * q.val = q.val; rw [e9]; omega)
  show blockLogits (xblk m c t) (gblk m c t) (ix2 p q)
      = logitsFactored (argX m c) (argW m c) (argG m c) (((cfg0.win 4).blk t).view.emb (ix2 p q))
  rw [he]
  have e1 : (fun h => xblk m c t (ix2 p h)) = fun h => argX m c (ix2 (rowOf t p) h) := funext fun h => xblk_apply m c t p h
  show (∑ h : Fin 7168, xblk m c t (ix2 p h) * gblk m c t (ix2 q h)) * scaleOf (fun h => xblk m c t (ix2 p h))
      = (∑ h : Fin 7168, argX m c (ix2 (rowOf t p) h) * (argG m c (ix2 q h) * argW m c (ix1 h)))
          * scaleOf (fun h => argX m c (ix2 (rowOf t p) h))
  rw [e1]
  exact congrArg (· * _) (Finset.sum_congr rfl fun h _ => by rw [xblk_apply m c t p h, gblk_apply m c t q h])

/-! ## Every row is in the block of its point -/

theorem mem_blk3 (t : Fin cfg0.N) (i : S8192x7168.Idx) :
    i ∈ ((cfg0.win 3).blk t).view.set ↔ ∀ a : Fin 2, win0_3.index t a * S256x7168.size a ≤ (i a).val ∧ (i a).val < win0_3.index t a * S256x7168.size a + S256x7168.size a := by
  show i ∈ ((View.whole main_v5_0).slice (win0_3.rect t)).set ↔ _
  rw [View.set_slice_whole, Rect.mem_set_unit]
  exact Iff.rfl

theorem mem_blk4 (t : Fin cfg0.N) (i : S8192x384.Idx) :
    i ∈ ((cfg0.win 4).blk t).view.set ↔ ∀ a : Fin 2, win0_4.index t a * S256x384.size a ≤ (i a).val ∧ (i a).val < win0_4.index t a * S256x384.size a + S256x384.size a := by
  show i ∈ ((View.whole main_v5_1).slice (win0_4.rect t)).set ↔ _
  rw [View.set_slice_whole, Rect.mem_set_unit]
  exact Iff.rfl

/-- The point whose block holds row r. -/
def pointOf (r : ℕ) (hr : r < 8192) : Fin cfg0.N := ⟨r / 256, by rw [show cfg0.N = 32 from N_0]; omega⟩

theorem final3 (c : Dev nD) : (dats m 0 c).arrAt 3 cfg0.N = normed (argX m c) (argW m c) :=
  (dats m 0 c).arrAt_eq_of_cover 3 (normed (argX m c) (argW m c)) (fun t _ => flushed3_eq m c t) fun i => by
    have h0 : (i 0).val < 8192 := idx2_lt0 i
    have h1 : (i 1).val < 7168 := idx2_lt1 i
    refine ⟨pointOf (i 0).val h0, flush0_3 _, ?_⟩
    obtain ⟨-, -, -, -, -, -, e6, e7, -⟩ := idx_facts (pointOf (i 0).val h0)
    have ht : (pointOf (i 0).val h0).val = (i 0).val / 256 := rfl
    rw [mem_blk3]
    intro a
    match a with
    | ⟨0, _⟩ => show win0_3.index _ (0 : Fin 2) * 256 ≤ (i 0).val ∧ (i 0).val < win0_3.index _ (0 : Fin 2) * 256 + 256; rw [e6, ht]; omega
    | ⟨1, _⟩ => show win0_3.index _ (1 : Fin 2) * 7168 ≤ (i 1).val ∧ (i 1).val < win0_3.index _ (1 : Fin 2) * 7168 + 7168; rw [e7]; omega

theorem final4 (c : Dev nD) : (dats m 0 c).arrAt 4 cfg0.N = logitsFactored (argX m c) (argW m c) (argG m c) :=
  (dats m 0 c).arrAt_eq_of_cover 4 (logitsFactored (argX m c) (argW m c) (argG m c)) (fun t _ => flushed4_eq m c t) fun i => by
    have h0 : (i 0).val < 8192 := idx2_lt0 i
    have h1 : (i 1).val < 384 := idx2_lt1 i
    refine ⟨pointOf (i 0).val h0, flush0_4 _, ?_⟩
    obtain ⟨-, -, -, -, -, -, -, -, e8, e9⟩ := idx_facts (pointOf (i 0).val h0)
    have ht : (pointOf (i 0).val h0).val = (i 0).val / 256 := rfl
    rw [mem_blk4]
    intro a
    match a with
    | ⟨0, _⟩ => show win0_4.index _ (0 : Fin 2) * 256 ≤ (i 0).val ∧ (i 0).val < win0_4.index _ (0 : Fin 2) * 256 + 256; rw [e8, ht]; omega
    | ⟨1, _⟩ => show win0_4.index _ (1 : Fin 2) * 384 ≤ (i 1).val ∧ (i 1).val < win0_4.index _ (1 : Fin 2) * 384 + 384; rw [e9]; omega

/-! ## The run, read -/

/-- Every execution ends with the first result at normed(x, w), the second at the factored logits of (x, w, g), and
    the arguments unchanged. -/
theorem run : θ_run defs (onTc (τ := τ) (main (F := Ideal))) ⟨m, fun _ => 0, ρ⟩ fun r => ∀ c : Dev nD,
      r.2.mem ((c : Thread nD τ).loc main_v5_0) = normed (argX m c) (argW m c)
      ∧ r.2.mem ((c : Thread nD τ).loc main_v5_1) = logitsFactored (argX m c) (argW m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.Whole

end
-- ==== Proof.RefValue.lean ====
/-
  The reference's two results are the specification's normed and logits.

  Its row statistic is 0 + Σ_h x[t, h]² divided by 7168, plus ε, under rsqrt: dividing an extended real by the real
  7168 is multiplying by 1/7168, so this is the row scale r(t).  Then x · r · w entry by entry, and a contraction of
  that with g over the 7168 columns.
-/
import proofs.«429081_j4638564680113_3_alg».proof.Proof.Gen.ReferenceIdeal.Read
import proofs.«429081_j4638564680113_3_alg».proof.Proof.Spec

noncomputable section

namespace Cert.ReferenceIdeal.RefValue

open Cert.ReferenceIdeal Cert.ReferenceIdeal.Read
open Idealize.ShloMosaic Idealize.ShloMosaic.ValueIdx Cert.RmsGate
open scoped BigOperators

/-- The reference's row statistic at row t is the row scale of that row. -/
theorem scale_ref (x0 : FVec Ideal S8192x7168 .f32) (t : Fin 8192) (u : Fin 1) :
    val_main_v7 (F := Ideal) x0 (ix2 t u) = scaleOf (fun h => x0 (ix2 t h)) := by
  have hi : ∀ k : Fin 7168, idx_main_v1 (idx_main_v2 (ix2 t u)) k = (ix2 t k : S8192x7168.Idx) := fun k =>
    funext fun a => Fin.ext (by match a with | ⟨0, _⟩ => rfl | ⟨1, _⟩ => rfl)
  rw [val_main_v7_apply, val_main_v6_apply, val_main_v4_apply, val_main_v5_apply, val_main_cst_1_apply,
    val_main_v2_apply, val_main_v3_apply, val_main_cst_0_apply, val_main_v1_apply, val_main_cst_apply]
  simp only [val_main_v0_apply, hi, Ideal.hostUnary_rsqrt_def, Ideal.addf_def, Ideal.hostDivf_def, Ideal.ofBits_def,
    Ideal.mulf_def, Ideal.ofBits_zero_f32, zero_add, ofBits_7168, Ideal.div_coe (by norm_num : (7168 : ℝ) ≠ 0)]
  rfl

/-- The reference's first result. -/
theorem normed_ref (x0 : FVec Ideal S8192x7168 .f32) (x1 : FVec Ideal S7168 .f32) :
    val_main_v12 (F := Ideal) x0 x1 = normed x0 x1 := by
  funext i
  obtain ⟨t, k, rfl⟩ : ∃ (t : Fin 8192) (k : Fin 7168), i = ix2 t k := ⟨i 0, i 1, eq_ix2 i⟩
  have h8 : idx_main_v8 (ix2 t k) = (ix2 t (0 : Fin 1) : S8192x1.Idx) :=
    funext fun a => Fin.ext (by match a with | ⟨0, _⟩ => rfl | ⟨1, _⟩ => rfl)
  have h10 : idx_main_v10 (idx_main_v11 (ix2 t k)) = (ix1 k : S7168.Idx) :=
    funext fun a => Fin.ext (by match a with | ⟨0, _⟩ => rfl)
  rw [val_main_v12_apply, val_main_v9_apply, val_main_v8_apply, val_main_v11_apply, val_main_v10_apply, h8, h10,
    scale_ref]
  rfl

/-- The reference's second result. -/
theorem logits_ref (x0 : FVec Ideal S8192x7168 .f32) (x1 : FVec Ideal S7168 .f32) (x2 : FVec Ideal S384x7168 .f32) :
    val_main_v13 (F := Ideal) x0 x1 x2 = logits x0 x1 x2 := by
  funext j
  rw [val_main_v13_apply, normed_ref]
  refine Finset.sum_congr rfl fun k _ => ?_
  have hl : lidx_main_v13 j k = (ix2 (j 0) k : S8192x7168.Idx) :=
    funext fun a => Fin.ext (by match a with | ⟨0, _⟩ => rfl | ⟨1, _⟩ => rfl)
  have hr : ridx_main_v13 j k = (ix2 (j 1) k : S384x7168.Idx) :=
    funext fun a => Fin.ext (by match a with | ⟨0, _⟩ => rfl | ⟨1, _⟩ => rfl)
  rw [hl, hr]

end Cert.ReferenceIdeal.RefValue

end
-- ==== Proof.Finite.lean ====
/-
  The precondition says every entry of the three arguments has absolute value below +∞; over the extended reals
  that makes every entry a real number (|−∞| = |+∞| = +∞ is not below +∞).
-/
import proofs.«429081_j4638564680113_3_alg».proof.Pre_finite_inputs
import Idealize.ShloMosaic.PureOps.Ideal.Laws
import Idealize.ShloMosaic.Lib.ReduceAll
import Idealize.ShloMosaic.Lib.Affine
import Idealize.ShloMosaic.Lib.ValueIdx

noncomputable section

namespace Cert.Pre_finite_inputs.Finite

open Idealize.ShloMosaic Cert.Pre_finite_inputs

/-- The word 0x7F800000 is +∞. -/
theorem ofBits_inf : Ideal.ofBits .f32 0x7F800000#32 = ⊤ := by
  simp [Ideal.ofBits, Ideal.ieee]

/-- An extended real whose absolute value max(x, −x) compares below +∞ is a real number. -/
theorem real_of_abs_lt_inf (x : EReal)
    (h : Ideal.cmp .olt (max x (-x)) (Ideal.ofBits .f32 0x7F800000#32) = 1#1) : ∃ r : ℝ, x = r := by
  rw [ofBits_inf] at h
  induction x using EReal.rec with
  | bot => simp [Ideal.cmp] at h
  | coe r => exact ⟨r, rfl⟩
  | top => simp [Ideal.cmp] at h

instance : Subsingleton S_.Idx := ⟨fun a b => funext fun d => d.elim0⟩

variable [Facts]

/-- Where the finiteness predicate is all ones, every entry of each argument is a real number. -/
theorem real_of_fn (a0 : FVec Ideal S8192x7168 .f32) (a1 : FVec Ideal S7168 .f32) (a2 : FVec Ideal S384x7168 .f32)
    (h : fn (F := Ideal) a0 a1 a2 = fun _ => 1#1) :
    (∀ i, ∃ r : ℝ, a0 i = r) ∧ (∀ i, ∃ r : ℝ, a1 i = r) ∧ (∀ i, ∃ r : ℝ, a2 i = r) := by
  have h1 := congrFun h ValueIdx.ix0
  dsimp only [fn] at h1
  obtain ⟨h12, hg⟩ := IntOp.andi_eq_one.mp h1
  obtain ⟨hx, hw⟩ := IntOp.andi_eq_one.mp h12
  exact ⟨fun i => real_of_abs_lt_inf _ (Host.reduce_andi_all _ _ _ _ _ hx i),
    fun i => real_of_abs_lt_inf _ (Host.reduce_andi_all _ _ _ _ _ hw i),
    fun i => real_of_abs_lt_inf _ (Host.reduce_andi_all _ _ _ _ _ hg i)⟩

end Cert.Pre_finite_inputs.Finite

end
-- ==== Proof.lean ====
/-
  RMS normalisation and gate projection: the tiled kernel against the whole-array reference, over the extended reals.

  Both programs return normed[t, h] = x[t, h] · r(t) · w[h] with r(t) = rsqrt((Σ_h x[t, h]²)/7168 + ε), and the logits
  Σ_h normed[t, h] · g[e, h].  The kernel works on 32 blocks of 256 token rows.  For the row scale it sums the squares
  of a row in four runs of 1792 entries and multiplies by the constant named 1/7168, where the reference sums the
  whole row and divides by 7168: the same extended real (a sum may be regrouped; x / 7168 = x · (1/7168)).  So the
  first results agree outright.  For the logits the kernel contracts x itself with the folded matrix g[e, h] · w[h]
  and applies r(t) after the contraction, (Σ_h x[t, h] · (g[e, h] · w[h])) · r(t), where the reference contracts the
  normalised rows with g.  Pulling r(t) out of the sum is distributivity, which the extended reals have only away
  from the infinities; under the precondition every entry of x, w, g is a real number, r(t) is then a real number
  too (its argument is at least ε > 0), and the two sums are equal in ℝ.

  The kernel's run is read from its frame: each point's two stored blocks are closed functions of the point's input
  blocks (Block), the blocks tile the arrays (Whole); the reference's run is read one operation at a time (RefValue);
  the precondition gives real entries (Finite); the algebra is in Spec.
-/
import proofs.«429081_j4638564680113_3_alg».proof.Defs
import proofs.«429081_j4638564680113_3_alg».proof.Proof.Gen.Kernel
import proofs.«429081_j4638564680113_3_alg».proof.Proof.Gen.Kernel.Skeleton
import proofs.«429081_j4638564680113_3_alg».proof.Proof.Gen.Kernel.Launch
import proofs.«429081_j4638564680113_3_alg».proof.Proof.Gen.Kernel.Points
import proofs.«429081_j4638564680113_3_alg».proof.Proof.Gen.Kernel.Frame
import proofs.«429081_j4638564680113_3_alg».proof.Proof.Gen.KernelIdeal
import proofs.«429081_j4638564680113_3_alg».proof.Proof.Gen.KernelIdeal.Skeleton
import proofs.«429081_j4638564680113_3_alg».proof.Proof.Gen.KernelIdeal.Launch
import proofs.«429081_j4638564680113_3_alg».proof.Proof.Gen.KernelIdeal.Points
import proofs.«429081_j4638564680113_3_alg».proof.Proof.Gen.KernelIdeal.Frame
import proofs.«429081_j4638564680113_3_alg».proof.Proof.Gen.ReferenceIdeal
import proofs.«429081_j4638564680113_3_alg».proof.Proof.Gen.Pre_finite_inputs
import proofs.«429081_j4638564680113_3_alg».proof.Proof.Gen.KernelIdeal.Value
import proofs.«429081_j4638564680113_3_alg».proof.Proof.Gen.ReferenceIdeal.Run
import proofs.«429081_j4638564680113_3_alg».proof.Proof.Gen.ReferenceIdeal.Read
import proofs.«429081_j4638564680113_3_alg».proof.Proof.Whole
import proofs.«429081_j4638564680113_3_alg».proof.Proof.RefValue
import proofs.«429081_j4638564680113_3_alg».proof.Proof.Finite
import Idealize.ShloMosaic.Adequacy
import Idealize.ShloMosaic.Init

noncomputable section

namespace Cert.Proof

open Idealize.ShloMosaic Idealize.SL.Sem Cert.RmsGate Cert.KernelIdeal.Whole

/-- From memories that agree on x, w, g (all entries real): the kernel ends at normed and the factored logits, the
    reference at normed and the logits; the two logits are one function on real arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => normed (argX m c) (argW m c), fun c => logitsFactored (argX m c) (argW m c) (argG m c),
    Cert.KernelIdeal.Whole.run m ρ, ?_⟩
  refine (θ_run Cert.ReferenceIdeal.defs _ _).mono (fun r h c => ?_) (Cert.ReferenceIdeal.Value.run (F := Ideal) m' ρ')
  obtain ⟨hx, hw, hg⟩ := Cert.Pre_finite_inputs.Finite.real_of_fn _ _ _ (hpre c)
  refine ⟨(h c).1.trans ?_, (h c).2.1.trans ?_, (h c).2.2⟩
  · rw [Cert.ReferenceIdeal.Read.val_main_v12_eq, Cert.ReferenceIdeal.RefValue.normed_ref, (hagree c).1, (hagree c).2.1]
  · rw [Cert.ReferenceIdeal.Read.val_main_v13_eq, Cert.ReferenceIdeal.RefValue.logits_ref, (hagree c).1, (hagree c).2.1,
      (hagree c).2.2]
    exact logits_eq_factored _ _ _ hx hw hg

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  IdealRules.named_const.statement Cert.KernelIdeal.κ "inv_7168" .f32 0x39124925#32 ((1 / 7168 : ℝ) : EReal) rfl,
  algebraic⟩

end Cert.Proof

end
